-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S1024x1024 : Shape := ⟨2, ![1024, 1024]⟩
abbrev S1024x128 : Shape := ⟨2, ![1024, 128]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg4 : FVec F S1024x128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  main_v23

def fn {F : FTy → Type} [FloatOps F] (main_arg0 : FVec F S4x8192x1024 .f32) (main_arg1 : FVec F S1024 .f32) (main_arg2 : FVec F S1024x1024 .f32) (main_arg3 : FVec F S1024x128 .f32) (main_arg4 : FVec F S1024x128 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S4x8192x1024 : Shape := ⟨3, ![4, 8192, 1024]⟩
abbrev S1024 : Shape := ⟨1, ![1024]⟩
abbrev S1024x1024 : Shape := ⟨2, ![1024, 1024]⟩
abbrev S1024x128 : Shape := ⟨2, ![1024, 128]⟩
abbrev S32768x1024 : Shape := ⟨2, ![32768, 1024]⟩
abbrev S32768x128 : Shape := ⟨2, ![32768, 128]⟩
abbrev S1024x1 : Shape := ⟨2, ![1024, 1]⟩
abbrev S1x1024 : Shape := ⟨2, ![1, 1024]⟩
abbrev S4x8192x16x64 : Shape := ⟨4, ![4, 8192, 16, 64]⟩
abbrev S4x8192x2x64 : Shape := ⟨4, ![4, 8192, 2, 64]⟩

abbrev nBuf : Space → Nat
  | .hbm => 15
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S32768x1024, .f32⟩
  | .hbm, ⟨6, _⟩ => ⟨S1024x1024, .bf16⟩
  | .hbm, ⟨7, _⟩ => ⟨S1024x128, .bf16⟩
  | .hbm, ⟨8, _⟩ => ⟨S1024x128, .bf16⟩
  | .hbm, ⟨9, _⟩ => ⟨S32768x1024, .f32⟩
  | .hbm, ⟨10, _⟩ => ⟨S32768x128, .f32⟩
  | .hbm, ⟨11, _⟩ => ⟨S32768x128, .f32⟩
  | .hbm, ⟨12, _⟩ => ⟨S4x8192x16x64, .f32⟩
  | .hbm, ⟨13, _⟩ => ⟨S4x8192x2x64, .f32⟩
  | .hbm, ⟨14, _⟩ => ⟨S4x8192x2x64, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .bf16⟩
  | .local _ .vmem, ⟨4, _⟩ => ⟨S1024x128, .bf16⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x8192x1024_S32768x1024 : S4x8192x1024.ShapeCasts S32768x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S32768x1024_S4x8192x16x64 : S32768x1024.ShapeCasts S4x8192x16x64
  shapeCasts_S32768x128_S4x8192x2x64 : S32768x128.ShapeCasts S4x8192x2x64
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S32768x128.size a
  hwx0_6 : ∀ i : grid0.Coords, EltTy.bits .f32 = 32 ∨ (Rect.block (s := S32768x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S32768x128.size a
  hwx0_7 : ∀ i : grid0.Coords, EltTy.bits .f32 = 32 ∨ (Rect.block (s := S32768x128) S1024x128.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S1024x1024 : Shape := ⟨2, ![1024, 1024]⟩
abbrev S1024x128 : Shape := ⟨2, ![1024, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x128 : Shape := ⟨3, ![4, 8192, 128]⟩
abbrev S4x8192x16x64 : Shape := ⟨4, ![4, 8192, 16, 64]⟩
abbrev S4x8192x2x64 : Shape := ⟨4, ![4, 8192, 2, 64]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x128, .f32⟩
  | .hbm, ⟨26, _⟩ => ⟨S4x8192x128, .f32⟩
  | .hbm, ⟨27, _⟩ => ⟨S4x8192x16x64, .f32⟩
  | .hbm, ⟨28, _⟩ => ⟨S4x8192x2x64, .f32⟩
  | .hbm, ⟨29, _⟩ => ⟨S4x8192x2x64, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  shapeCasts_S4x8192x1024_S4x8192x16x64 : S4x8192x1024.ShapeCasts S4x8192x16x64
  shapeCasts_S4x8192x128_S4x8192x2x64 : S4x8192x128.ShapeCasts S4x8192x2x64
  dot_S4x8192x1024_S1024x1024_S4x8192x1024_2_0_01_1_n_n_wf : DotDims.WF S4x8192x1024 S1024x1024 S4x8192x1024 [2] [0] [0, 1] [1] [] []
  dot_S4x8192x1024_S1024x128_S4x8192x128_2_0_01_1_n_n_wf : DotDims.WF S4x8192x1024 S1024x128 S4x8192x128 [2] [0] [0, 1] [1] [] []

variable [Facts₀]

def dot_S4x8192x1024_S1024x1024_S4x8192x1024_2_0_01_1_n_n : DotDims S4x8192x1024 S1024x1024 S4x8192x1024 where
  lhsContracting := [2]
  rhsContracting := [0]
  lhsNonContracting := [0, 1]
  rhsNonContracting := [1]
  lhsBatch := []
  rhsBatch := []
  wf := dot_S4x8192x1024_S1024x1024_S4x8192x1024_2_0_01_1_n_n_wf
def dot_S4x8192x1024_S1024x128_S4x8192x128_2_0_01_1_n_n : DotDims S4x8192x1024 S1024x128 S4x8192x128 where
  lhsContracting := [2]
  rhsContracting := [0]
  lhsNonContracting := [0, 1]
  rhsNonContracting := [1]
  lhsBatch := []
  rhsBatch := []
  wf := dot_S4x8192x1024_S1024x128_S4x8192x128_2_0_01_1_n_n_wf

class Facts : Prop extends Facts₀ where

variable [Facts]
-- ==== Proof.RowSpec.lean ====
/-
  The mathematics both programs compute, one row at a time.

  A row `x : Fin 1024 → EReal` of the input is scaled by `rsqrt (mean of squares + ε)`,
  where the mean is the row's sum of squares divided by 1024 and ε is the f32 pattern
  of 1e-6; entry `k` is then multiplied by `1 + g k` for the gain vector `g`; and an
  output entry is the dot product of that normalised row with one column of a weight
  matrix. No law of the extended reals is needed to join the two programs: they apply
  the same operations in the same order, so every lemma below and downstream is a
  re-indexing.

  The three results `q`, `k`, `v` are this dot product at row `(b, s)` and column
  `n * 64 + e` of the respective weight matrix, laid out as `[4, 8192, heads, 64]`.
-/
import Idealize.ShloMosaic.PureOps.Ideal.Laws
import Idealize.ShloMosaic.Lib.ValueIdx

noncomputable section

namespace Cert.RmsProj

open Idealize.ShloMosaic Idealize.ShloMosaic.ValueIdx

/-- The scale of a row: `rsqrt (Σ_j x_j² / 1024 + ε)`, the divisor and ε as their f32 patterns. -/
def rowScale (x : Fin 1024 → EReal) : EReal :=
  Ideal.rsqrt (Ideal.div (∑ j : Fin 1024, x j * x j) (Ideal.ofBits .f32 0x44800000#32) + Ideal.ofBits .f32 0x358637BD#32)

/-- Entry `k` of the normalised row: `x_k · scale · (1 + g_k)`. -/
def normed (x g : Fin 1024 → EReal) (k : Fin 1024) : EReal :=
  x k * rowScale x * (Ideal.ofBits .f32 0x3F800000#32 + g k)

/-- The normalised row against one weight column. -/
def proj (x g w : Fin 1024 → EReal) : EReal :=
  ∑ k : Fin 1024, normed x g k * w k

/-- Row `(b, s)` of the rank-3 input. -/
abbrev row3 (x : (⟨3, ![4, 8192, 1024]⟩ : Shape).Idx → EReal) (b : Fin 4) (s : Fin 8192) : Fin 1024 → EReal :=
  fun k => x (ix3 b s k)

/-- Row `r` of the input flattened to `[32768, 1024]`. -/
abbrev row2 (x : (⟨2, ![32768, 1024]⟩ : Shape).Idx → EReal) (r : Fin 32768) : Fin 1024 → EReal :=
  fun k => x (ix2 r k)

/-- Row `p` of a `[1024, 1024]` block of the flattened input. -/
abbrev rowBlk (x : (⟨2, ![1024, 1024]⟩ : Shape).Idx → EReal) (p : Fin 1024) : Fin 1024 → EReal :=
  fun k => x (ix2 p k)

/-- The gain vector as a function of the column. -/
abbrev gain (g : (⟨1, ![1024]⟩ : Shape).Idx → EReal) : Fin 1024 → EReal :=
  fun k => g (ix1 k)

/-- Column `d` of a `[1024, 1024]` weight matrix. -/
abbrev colQ (w : (⟨2, ![1024, 1024]⟩ : Shape).Idx → EReal) (d : Fin 1024) : Fin 1024 → EReal :=
  fun k => w (ix2 k d)

/-- Column `d` of a `[1024, 128]` weight matrix. -/
abbrev colKV (w : (⟨2, ![1024, 128]⟩ : Shape).Idx → EReal) (d : Fin 128) : Fin 1024 → EReal :=
  fun k => w (ix2 k d)

/-- Head `n`, lane `e` of sixteen heads is column `n * 64 + e` of 1024. -/
abbrev headCol16 (n : Fin 16) (e : Fin 64) : Fin 1024 := ⟨n.val * 64 + e.val, by have := n.isLt; have := e.isLt; omega⟩

/-- Head `n`, lane `e` of two heads is column `n * 64 + e` of 128. -/
abbrev headCol2 (n : Fin 2) (e : Fin 64) : Fin 128 := ⟨n.val * 64 + e.val, by have := n.isLt; have := e.isLt; omega⟩

/-- Token `(b, s)` is row `b * 8192 + s` of the flattened input. -/
abbrev tokenRow (b : Fin 4) (s : Fin 8192) : Fin 32768 := ⟨b.val * 8192 + s.val, by have := b.isLt; have := s.isLt; omega⟩

/-- The query result: `[4, 8192, 16, 64]`. -/
def outQ (x : (⟨3, ![4, 8192, 1024]⟩ : Shape).Idx → EReal) (g : (⟨1, ![1024]⟩ : Shape).Idx → EReal)
    (w : (⟨2, ![1024, 1024]⟩ : Shape).Idx → EReal) : (⟨4, ![4, 8192, 16, 64]⟩ : Shape).Idx → EReal :=
  fun i => proj (row3 x ⟨(i 0).val, (i 0).isLt⟩ ⟨(i 1).val, (i 1).isLt⟩) (gain g)
    (colQ w (headCol16 ⟨(i 2).val, (i 2).isLt⟩ ⟨(i 3).val, (i 3).isLt⟩))

/-- The key and value results: `[4, 8192, 2, 64]`. -/
def outKV (x : (⟨3, ![4, 8192, 1024]⟩ : Shape).Idx → EReal) (g : (⟨1, ![1024]⟩ : Shape).Idx → EReal)
    (w : (⟨2, ![1024, 128]⟩ : Shape).Idx → EReal) : (⟨4, ![4, 8192, 2, 64]⟩ : Shape).Idx → EReal :=
  fun i => proj (row3 x ⟨(i 0).val, (i 0).isLt⟩ ⟨(i 1).val, (i 1).isLt⟩) (gain g)
    (colKV w (headCol2 ⟨(i 2).val, (i 2).isLt⟩ ⟨(i 3).val, (i 3).isLt⟩))

/-- The query projection over the flattened layout `[32768, 1024]`. -/
def flatQ (x : (⟨2, ![32768, 1024]⟩ : Shape).Idx → EReal) (g : (⟨1, ![1024]⟩ : Shape).Idx → EReal)
    (w : (⟨2, ![1024, 1024]⟩ : Shape).Idx → EReal) : (⟨2, ![32768, 1024]⟩ : Shape).Idx → EReal :=
  fun i => proj (row2 x ⟨(i 0).val, (i 0).isLt⟩) (gain g) (colQ w ⟨(i 1).val, (i 1).isLt⟩)

/-- The key and value projections over the flattened layout `[32768, 128]`. -/
def flatKV (x : (⟨2, ![32768, 1024]⟩ : Shape).Idx → EReal) (g : (⟨1, ![1024]⟩ : Shape).Idx → EReal)
    (w : (⟨2, ![1024, 128]⟩ : Shape).Idx → EReal) : (⟨2, ![32768, 128]⟩ : Shape).Idx → EReal :=
  fun i => proj (row2 x ⟨(i 0).val, (i 0).isLt⟩) (gain g) (colKV w ⟨(i 1).val, (i 1).isLt⟩)

/-- The flattened query projection at an index whose coordinates are `(r, d)`. -/
theorem flatQ_apply (x : (⟨2, ![32768, 1024]⟩ : Shape).Idx → EReal) (g : (⟨1, ![1024]⟩ : Shape).Idx → EReal)
    (w : (⟨2, ![1024, 1024]⟩ : Shape).Idx → EReal) (r : Fin 32768) (d : Fin 1024) (i : (⟨2, ![32768, 1024]⟩ : Shape).Idx)
    (h0 : (i 0).val = r.val) (h1 : (i 1).val = d.val) :
    flatQ x g w i = proj (row2 x r) (gain g) (colQ w d) := by
  unfold flatQ
  rw [show (⟨(i 0).val, (i 0).isLt⟩ : Fin 32768) = r from Fin.ext h0, show (⟨(i 1).val, (i 1).isLt⟩ : Fin 1024) = d from Fin.ext h1]

/-- The flattened key or value projection at an index whose coordinates are `(r, d)`. -/
theorem flatKV_apply (x : (⟨2, ![32768, 1024]⟩ : Shape).Idx → EReal) (g : (⟨1, ![1024]⟩ : Shape).Idx → EReal)
    (w : (⟨2, ![1024, 128]⟩ : Shape).Idx → EReal) (r : Fin 32768) (d : Fin 128) (i : (⟨2, ![32768, 128]⟩ : Shape).Idx)
    (h0 : (i 0).val = r.val) (h1 : (i 1).val = d.val) :
    flatKV x g w i = proj (row2 x r) (gain g) (colKV w d) := by
  unfold flatKV
  rw [show (⟨(i 0).val, (i 0).isLt⟩ : Fin 32768) = r from Fin.ext h0, show (⟨(i 1).val, (i 1).isLt⟩ : Fin 128) = d from Fin.ext h1]

end Cert.RmsProj

end
-- ==== Proof.KernelRows.lean ====
/-
  The kernel body's arithmetic, read at an index.

  The block of activations the body computes is, at row `p` and column `k`, the
  normalised row `p` of the loaded input block at `k`; each of the three matrix
  products into a zero accumulator is, at `(p, d)`, that row against column `d` of
  the loaded weight block.
-/
import proofs.«181988_j8203387535387_1_alg».proof.Proof.Gen.KernelIdeal.Skeleton
import proofs.«181988_j8203387535387_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen
open Idealize.ShloMosaic Idealize.ShloMosaic.TcCoe Idealize.ShloMosaic.ValueIdx Cert.RmsProj

/-- A vector of `1024` entries cast to a column `[1024, 1]` reads entry `p` at `(p, u)`. -/
theorem col_cast_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    omega)

/-- A column `[1024, 1]` broadcast over 1024 columns reads, at `(p, k)`, the column's entry `p`. -/
theorem col_bcast_apply {α : Type} (x : S1024x1.Idx → α) (h : S1024x1.Broadcasts S1024x1024) (p k : Fin 1024) :
    broadcastTo S1024x1024 x h (ix2 p k) = x (ix2 p (0 : Fin 1)) := by
  refine broadcastTo_apply x h (ix2 p k) (ix2 p (0 : Fin 1)) fun ax => ?_
  match ax with
  | ⟨0, _⟩ => rfl
  | ⟨1, _⟩ => rfl

/-- The lane sum of a `[1024, 1024]` block at row `p`: the sum of the row's entries. -/
theorem row_sum_apply (v : FVec Ideal S1024x1024 .f32) (hφ : FKind.Formats .f32)
    (hacc : (0x00000000#32 : BitVec 32) = 0x00000000#32) (p : Fin 1024) :
    multiReduction .add [1] S1024 v 0x00000000#32 reduces_S1024x1024_S1024 hφ hacc (ix1 p) = ∑ j : Fin 1024, v (ix2 p j) :=
  (Ideal.multiReduction_add_single v _ reduces_S1024x1024_S1024 hφ hacc (ix1 p)).trans
    (Finset.sum_congr rfl fun j _ => congrArg v (funext fun a => match a with | ⟨0, _⟩ => rfl | ⟨1, _⟩ => rfl))

/-- The activations block at `(p, k)`: the normalised row `p` of the input block at column `k`. -/
theorem act_apply (x0 : Vec Ideal S1024x1024 .f32) (x1 : Vec Ideal S1024 .f32) (p k : Fin 1024) :
    k0_pay1 (F := Ideal) x0 x1 (ix2 p k) = normed (rowBlk x0 p) (gain x1) k := by
  unfold k0_pay1
  rw [shapeCast_self]
  show (x0 (ix2 p k) * broadcastTo S1024x1024 _ broadcasts_S1024x1_S1024x1024 (ix2 p k))
      * broadcastTo S1024x1024 _ broadcasts_S1x1024_S1024x1024 (ix2 p k) = _
  rw [col_bcast_apply, broadcastTo_1b_ab_apply, shapeCast_a_1a_apply]
  show x0 (ix2 p k)
      * Ideal.rsqrt (Ideal.div (shapeCast S1024x1 _ shapeCasts_S1024_S1024x1 (ix2 p (0 : Fin 1))) (Ideal.ofBits .f32 0x44800000#32)
          + Ideal.ofBits .f32 0x358637BD#32)
      * (Ideal.ofBits .f32 0x3F800000#32 + x1 (ix1 k)) = _
  rw [col_cast_apply, row_sum_apply]
  rfl

/-! ## The query product: a `[1024, 1024]` block against a `[1024, 1024]` weight block -/

theorem lhsQ_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsQ_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsQ_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsQ_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the product is, at `(p, d)`, the sum over `k` of the left block's `(p, k)` times the
    right block's `(k, d)`. -/
theorem matmulQ_apply (l : FVec Ideal S1024x1024 .bf16) (r : FVec Ideal S1024x1024 .bf16) (p d : Fin 1024) :
    matmul dot_S1024x1024_S1024x1024_S1024x1024_1_0_0_1_n_n none l r (constant (F := Ideal) S1024x1024 .f32 0x00000000#32) (ix2 p d)
      = ∑ k : Fin 1024, l (ix2 p k) * r (ix2 k d) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p d) ((ValueIdx.contrEquiv1 dot_S1024x1024_S1024x1024_S1024x1024_1_0_0_1_n_n 1024 rfl rfl).symm k) = ix2 p k := funext fun a => Fin.ext (by
    match a with
    | ⟨0, _⟩ => exact lhsQ_0 _ _
    | ⟨1, _⟩ => exact (lhsQ_1 _ _).trans hk)
  have er : dot_S1024x1024_S1024x1024_S1024x1024_1_0_0_1_n_n.rhsIdx (ix2 p d) ((ValueIdx.contrEquiv1 dot_S1024x1024_S1024x1024_S1024x1024_1_0_0_1_n_n 1024 rfl rfl).symm k) = ix2 k d := funext fun a => Fin.ext (by
    match a with
    | ⟨0, _⟩ => exact (rhsQ_0 _ _).trans hk
    | ⟨1, _⟩ => exact rhsQ_1 _ _)
  rw [el, er]

/-- The query block the body stores, at `(p, d)`: the normalised row `p` against column `d` of the weight block. -/
theorem q_apply (x0 : Vec Ideal S1024x1024 .f32) (x1 : Vec Ideal S1024 .f32) (x2 : Vec Ideal S1024x1024 .bf16) (p d : Fin 1024) :
    k0_pay2 (F := Ideal) x0 x1 x2 (ix2 p d) = proj (rowBlk x0 p) (gain x1) (colQ x2 d) := by
  unfold k0_pay2
  rw [shapeCast_self, matmulQ_apply]
  unfold proj
  exact Finset.sum_congr rfl fun k _ => by rw [act_apply]

/-! ## The key and value products: a `[1024, 1024]` block against a `[1024, 128]` weight block -/

theorem lhsKV_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsKV_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsKV_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsKV_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Into a zero accumulator the narrower product is the same sum, the column `d` ranging over 128. -/
theorem matmulKV_apply (l : FVec Ideal S1024x1024 .bf16) (r : FVec Ideal S1024x128 .bf16) (p : Fin 1024) (d : Fin 128) :
    matmul dot_S1024x1024_S1024x128_S1024x128_1_0_0_1_n_n none l r (constant (F := Ideal) S1024x128 .f32 0x00000000#32) (ix2 p d)
      = ∑ k : Fin 1024, l (ix2 p k) * r (ix2 k d) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p d) ((ValueIdx.contrEquiv1 dot_S1024x1024_S1024x128_S1024x128_1_0_0_1_n_n 1024 rfl rfl).symm k) = ix2 p k := funext fun a => Fin.ext (by
    match a with
    | ⟨0, _⟩ => exact lhsKV_0 _ _
    | ⟨1, _⟩ => exact (lhsKV_1 _ _).trans hk)
  have er : dot_S1024x1024_S1024x128_S1024x128_1_0_0_1_n_n.rhsIdx (ix2 p d) ((ValueIdx.contrEquiv1 dot_S1024x1024_S1024x128_S1024x128_1_0_0_1_n_n 1024 rfl rfl).symm k) = ix2 k d := funext fun a => Fin.ext (by
    match a with
    | ⟨0, _⟩ => exact (rhsKV_0 _ _).trans hk
    | ⟨1, _⟩ => exact rhsKV_1 _ _)
  rw [el, er]

/-- The key block the body stores, at `(p, d)`. -/
theorem k_apply (x0 : Vec Ideal S1024x1024 .f32) (x1 : Vec Ideal S1024 .f32) (x3 : Vec Ideal S1024x128 .bf16) (p : Fin 1024) (d : Fin 128) :
    k0_pay3 (F := Ideal) x0 x1 x3 (ix2 p d) = proj (rowBlk x0 p) (gain x1) (colKV x3 d) := by
  unfold k0_pay3
  rw [shapeCast_self, matmulKV_apply]
  unfold proj
  exact Finset.sum_congr rfl fun k _ => by rw [act_apply]

/-- The value block the body stores, at `(p, d)`. -/
theorem v_apply (x0 : Vec Ideal S1024x1024 .f32) (x1 : Vec Ideal S1024 .f32) (x4 : Vec Ideal S1024x128 .bf16) (p : Fin 1024) (d : Fin 128) :
    k0_pay4 (F := Ideal) x0 x1 x4 (ix2 p d) = proj (rowBlk x0 p) (gain x1) (colKV x4 d) := by
  unfold k0_pay4
  rw [shapeCast_self, matmulKV_apply]
  unfold proj
  exact Finset.sum_congr rfl fun k _ => by rw [act_apply]

end Cert.KernelIdeal.Rows

end
-- ==== Proof.KernelBlocks.lean ====
/-
  From what each grid point writes back to the whole result arrays.

  The grid has 32 points; point `t` reads rows `t * 1024 … t * 1024 + 1023` of the
  flattened input and the whole gain vector and weight matrices, and writes the same
  rows of each of the three flattened results. What it writes is therefore the block
  at `t` of ONE function of the arrays as the region finds them (the row-wise
  projection over the flattened layout), and the 32 row blocks cover each result.
-/
import proofs.«181988_j8203387535387_1_alg».proof.Proof.Gen.KernelIdeal.Frame
import proofs.«181988_j8203387535387_1_alg».proof.Proof.KernelRows

set_option maxRecDepth 16384

noncomputable section

namespace Cert.KernelIdeal.Blocks

open Cert.KernelIdeal Cert.KernelIdeal.Gen Cert.KernelIdeal.Rows
open Idealize.ShloMosaic Idealize.ShloMosaic.TcCoe Idealize.ShloMosaic.ValueIdx Idealize.SL.Sem Cert.RmsProj
open Idealize.ShloMosaic.Pipeline (Dat Cfg Window)

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the input rows and the three results move with the point along axis 0;
    the gain and the weights stay at block 0. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The blocks a point reads, at their literal types. -/
abbrev xBlk (c : Dev nD) (t : Fin cfg0.N) : Vec Ideal S1024x1024 .f32 := iblk m c 0 t
abbrev gBlk (c : Dev nD) (t : Fin cfg0.N) : Vec Ideal S1024 .f32 := iblk m c 1 t
abbrev wqBlk (c : Dev nD) (t : Fin cfg0.N) : Vec Ideal S1024x1024 .bf16 := iblk m c 2 t
abbrev wkBlk (c : Dev nD) (t : Fin cfg0.N) : Vec Ideal S1024x128 .bf16 := iblk m c 3 t
abbrev wvBlk (c : Dev nD) (t : Fin cfg0.N) : Vec Ideal S1024x128 .bf16 := iblk m c 4 t

/-- The arrays as the region finds them, at their literal types. -/
abbrev xArr (c : Dev nD) : Vec Ideal S32768x1024 .f32 := V m c main_v0
abbrev gArr (c : Dev nD) : Vec Ideal S1024 .f32 := V m c main_arg1
abbrev wqArr (c : Dev nD) : Vec Ideal S1024x1024 .bf16 := V m c main_v1
abbrev wkArr (c : Dev nD) : Vec Ideal S1024x128 .bf16 := V m c main_v2
abbrev wvArr (c : Dev nD) : Vec Ideal S1024x128 .bf16 := V m c main_v3

/-- Row `p` of the input block at point `t` is row `t * 1024 + p` of the flattened input. -/
theorem xBlk_row (c : Dev nD) (t : Fin cfg0.N) (p : Fin 1024) (r : Fin 32768) (hr : r.val = t.val * 1024 + p.val) :
    rowBlk (xBlk m c t) p = row2 (xArr m c) r := by
  obtain ⟨e0, e1, -⟩ := idx_facts t
  funext k
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- The gain block at any point is the whole gain vector. -/
theorem gBlk_gain (c : Dev nD) (t : Fin cfg0.N) : gain (gBlk m c t) = gain (gArr m c) := by
  obtain ⟨-, -, e2, -⟩ := idx_facts t
  funext k
  show V m c main_arg1 (((cfg0.win 1).blk t).view.emb (ix1 k)) = V m c main_arg1 (ix1 k)
  refine congrArg (V m c main_arg1) (funext fun a => Fin.ext ?_)
  match a with
  | ⟨0, _⟩ => show win0_1.index t (0 : Fin 1) * 1024 + 1 * k.val = k.val; omega

/-- The query weight block at any point is the whole matrix. -/
theorem wqBlk_col (c : Dev nD) (t : Fin cfg0.N) (d : Fin 1024) : colQ (wqBlk m c t) d = colQ (wqArr m c) d := by
  obtain ⟨-, -, -, e3, e4, -⟩ := idx_facts t
  funext k
  show V m c main_v1 (((cfg0.win 2).blk t).view.emb (ix2 k d)) = V m c main_v1 (ix2 k d)
  refine congrArg (V m c main_v1) (funext fun a => Fin.ext ?_)
  match a with
  | ⟨0, _⟩ => show win0_2.index t (0 : Fin 2) * 1024 + 1 * k.val = k.val; omega
  | ⟨1, _⟩ => show win0_2.index t (1 : Fin 2) * 1024 + 1 * d.val = d.val; omega

/-- The key weight block at any point is the whole matrix. -/
theorem wkBlk_col (c : Dev nD) (t : Fin cfg0.N) (d : Fin 128) : colKV (wkBlk m c t) d = colKV (wkArr m c) d := by
  obtain ⟨-, -, -, -, -, e5, e6, -⟩ := idx_facts t
  funext k
  show V m c main_v2 (((cfg0.win 3).blk t).view.emb (ix2 k d)) = V m c main_v2 (ix2 k d)
  refine congrArg (V m c main_v2) (funext fun a => Fin.ext ?_)
  match a with
  | ⟨0, _⟩ => show win0_3.index t (0 : Fin 2) * 1024 + 1 * k.val = k.val; omega
  | ⟨1, _⟩ => show win0_3.index t (1 : Fin 2) * 128 + 1 * d.val = d.val; omega

/-- The value weight block at any point is the whole matrix. -/
theorem wvBlk_col (c : Dev nD) (t : Fin cfg0.N) (d : Fin 128) : colKV (wvBlk m c t) d = colKV (wvArr m c) d := by
  obtain ⟨-, -, -, -, -, -, -, e7, e8, -⟩ := idx_facts t
  funext k
  show V m c main_v3 (((cfg0.win 4).blk t).view.emb (ix2 k d)) = V m c main_v3 (ix2 k d)
  refine congrArg (V m c main_v3) (funext fun a => Fin.ext ?_)
  match a with
  | ⟨0, _⟩ => show win0_4.index t (0 : Fin 2) * 1024 + 1 * k.val = k.val; omega
  | ⟨1, _⟩ => show win0_4.index t (1 : Fin 2) * 128 + 1 * d.val = d.val; omega

/-- A point's rows lie inside the flattened arrays. -/
theorem row_lt (t : Fin cfg0.N) (p : Fin 1024) : t.val * 1024 + p.val < 32768 := by
  have ht : t.val < grid0.N := t.isLt
  have hN := N_0
  have hp := p.isLt
  omega

/-! ## The query result -/

/-- What point `t` writes back to the query array is its block of the flattened query projection. -/
theorem flushedQ_eq (c : Dev nD) (t : Fin cfg0.N) :
    (dats m 0 c).flushed 5 t = ((cfg0.win 5).blk t).view.read (Elt Ideal) (flatQ (xArr m c) (gArr m c) (wqArr m c)) := by
  show (cfg0.win 5).cut (grid0.coords t) ((dats m 0 c).after 5 t) = _
  rw [after0_5]
  unfold out0_5
  rw [View.canon_unit_zero origin2]
  simp only [View.ld_unit_zero (S := S1024x1024) origin2, View.ld_unit_zero (S := S1024) origin1]
  obtain ⟨-, -, -, -, -, -, -, -, -, e9, e10, -⟩ := idx_facts t
  funext j
  obtain ⟨p, d, rfl⟩ : ∃ (p d : Fin 1024), j = ix2 p d := ⟨j 0, j 1, eq_ix2 j⟩
  show k0_pay2 (F := Ideal) (xBlk m c t) (gBlk m c t) (wqBlk m c t) (ix2 p d)
    = flatQ (xArr m c) (gArr m c) (wqArr m c) (((cfg0.win 5).blk t).view.emb (ix2 p d))
  rw [q_apply, xBlk_row m c t p ⟨t.val * 1024 + p.val, row_lt t p⟩ rfl, gBlk_gain, wqBlk_col]
  refine (flatQ_apply _ _ _ ⟨t.val * 1024 + p.val, row_lt t p⟩ d _ ?_ ?_).symm
  · show win0_5.index t (0 : Fin 2) * 1024 + 1 * p.val = t.val * 1024 + p.val; omega
  · show win0_5.index t (1 : Fin 2) * 1024 + 1 * d.val = d.val; omega

/-- An index of the query array is in point `t`'s block iff each coordinate is in the block's range. -/
theorem mem_blkQ (t : Fin cfg0.N) (i : S32768x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4_0).slice (win0_5.rect t)).set ↔ _
  rw [View.set_slice_whole, Rect.mem_set_unit]
  exact Iff.rfl

/-- Every index of the query array is in the block of the point its row falls in. -/
theorem coverQ (i : S32768x1024.Idx) : ∃ t : Fin cfg0.N, (cfg0.win 5).flush t = true ∧ i ∈ ((cfg0.win 5).blk t).view.set := by
  have hi0 : (i 0).val < 32768 := (i 0).isLt
  have hi1 : (i 1).val < 1024 := (i 1).isLt
  obtain ⟨t, ht⟩ : ∃ t : Fin cfg0.N, t.val = (i 0).val / 1024 :=
    ⟨⟨(i 0).val / 1024, by have hN := N_0; show (i 0).val / 1024 < grid0.N; omega⟩, rfl⟩
  obtain ⟨-, -, -, -, -, -, -, -, -, e9, e10, -⟩ := idx_facts t
  refine ⟨t, flush0_5 t, ?_⟩
  rw [mem_blkQ]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The query array after the region: the flattened query projection of the arrays as the region finds them. -/
theorem finalQ (c : Dev nD) : (dats m 0 c).arrAt 5 cfg0.N = flatQ (xArr m c) (gArr m c) (wqArr m c) :=
  (dats m 0 c).arrAt_eq_of_cover 5 _ (fun t _ => flushedQ_eq m c t) coverQ

/-! ## The key result -/

/-- What point `t` writes back to the key array is its block of the flattened key projection. -/
theorem flushedK_eq (c : Dev nD) (t : Fin cfg0.N) :
    (dats m 0 c).flushed 6 t = ((cfg0.win 6).blk t).view.read (Elt Ideal) (flatKV (xArr m c) (gArr m c) (wkArr m c)) := by
  show (cfg0.win 6).cut (grid0.coords t) ((dats m 0 c).after 6 t) = _
  rw [after0_6]
  unfold out0_6
  rw [View.canon_unit_zero origin2]
  simp only [View.ld_unit_zero (S := S1024x1024) origin2, View.ld_unit_zero (S := S1024) origin1, View.ld_unit_zero (S := S1024x128) origin2]
  obtain ⟨-, -, -, -, -, -, -, -, -, -, -, e11, e12, -⟩ := idx_facts t
  funext j
  obtain ⟨p, d, rfl⟩ : ∃ (p : Fin 1024) (d : Fin 128), j = ix2 p d := ⟨j 0, j 1, eq_ix2 j⟩
  show k0_pay3 (F := Ideal) (xBlk m c t) (gBlk m c t) (wkBlk m c t) (ix2 p d)
    = flatKV (xArr m c) (gArr m c) (wkArr m c) (((cfg0.win 6).blk t).view.emb (ix2 p d))
  rw [k_apply, xBlk_row m c t p ⟨t.val * 1024 + p.val, row_lt t p⟩ rfl, gBlk_gain, wkBlk_col]
  refine (flatKV_apply _ _ _ ⟨t.val * 1024 + p.val, row_lt t p⟩ d _ ?_ ?_).symm
  · show win0_6.index t (0 : Fin 2) * 1024 + 1 * p.val = t.val * 1024 + p.val; omega
  · show win0_6.index t (1 : Fin 2) * 128 + 1 * d.val = d.val; omega

/-- An index of the key array is in point `t`'s block iff each coordinate is in the block's range. -/
theorem mem_blkK (t : Fin cfg0.N) (i : S32768x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v4_1).slice (win0_6.rect t)).set ↔ _
  rw [View.set_slice_whole, Rect.mem_set_unit]
  exact Iff.rfl

/-- Every index of the key array is in the block of the point its row falls in. -/
theorem coverK (i : S32768x128.Idx) : ∃ t : Fin cfg0.N, (cfg0.win 6).flush t = true ∧ i ∈ ((cfg0.win 6).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, by have hN := N_0; show (i 0).val / 1024 < grid0.N; omega⟩, rfl⟩
  obtain ⟨-, -, -, -, -, -, -, -, -, -, -, e11, e12, -⟩ := idx_facts t
  refine ⟨t, flush0_6 t, ?_⟩
  rw [mem_blkK]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 128 ≤ (i 1).val ∧ (i 1).val < win0_6.index t (1 : Fin 2) * 128 + 128; omega

/-- The key array after the region. -/
theorem finalK (c : Dev nD) : (dats m 0 c).arrAt 6 cfg0.N = flatKV (xArr m c) (gArr m c) (wkArr m c) :=
  (dats m 0 c).arrAt_eq_of_cover 6 _ (fun t _ => flushedK_eq m c t) coverK

/-! ## The value result -/

/-- What point `t` writes back to the value array is its block of the flattened value projection. -/
theorem flushedV_eq (c : Dev nD) (t : Fin cfg0.N) :
    (dats m 0 c).flushed 7 t = ((cfg0.win 7).blk t).view.read (Elt Ideal) (flatKV (xArr m c) (gArr m c) (wvArr m c)) := by
  show (cfg0.win 7).cut (grid0.coords t) ((dats m 0 c).after 7 t) = _
  rw [after0_7]
  unfold out0_7
  rw [View.canon_unit_zero origin2]
  simp only [View.ld_unit_zero (S := S1024x1024) origin2, View.ld_unit_zero (S := S1024) origin1, View.ld_unit_zero (S := S1024x128) origin2]
  obtain ⟨-, -, -, -, -, -, -, -, -, -, -, -, -, e13, e14⟩ := idx_facts t
  funext j
  obtain ⟨p, d, rfl⟩ : ∃ (p : Fin 1024) (d : Fin 128), j = ix2 p d := ⟨j 0, j 1, eq_ix2 j⟩
  show k0_pay4 (F := Ideal) (xBlk m c t) (gBlk m c t) (wvBlk m c t) (ix2 p d)
    = flatKV (xArr m c) (gArr m c) (wvArr m c) (((cfg0.win 7).blk t).view.emb (ix2 p d))
  rw [v_apply, xBlk_row m c t p ⟨t.val * 1024 + p.val, row_lt t p⟩ rfl, gBlk_gain, wvBlk_col]
  refine (flatKV_apply _ _ _ ⟨t.val * 1024 + p.val, row_lt t p⟩ d _ ?_ ?_).symm
  · show win0_7.index t (0 : Fin 2) * 1024 + 1 * p.val = t.val * 1024 + p.val; omega
  · show win0_7.index t (1 : Fin 2) * 128 + 1 * d.val = d.val; omega

/-- An index of the value array is in point `t`'s block iff each coordinate is in the block's range. -/
theorem mem_blkV (t : Fin cfg0.N) (i : S32768x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v4_2).slice (win0_7.rect t)).set ↔ _
  rw [View.set_slice_whole, Rect.mem_set_unit]
  exact Iff.rfl

/-- Every index of the value array is in the block of the point its row falls in. -/
theorem coverV (i : S32768x128.Idx) : ∃ t : Fin cfg0.N, (cfg0.win 7).flush t = true ∧ i ∈ ((cfg0.win 7).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, by have hN := N_0; show (i 0).val / 1024 < grid0.N; omega⟩, rfl⟩
  obtain ⟨-, -, -, -, -, -, -, -, -, -, -, -, -, e13, e14⟩ := idx_facts t
  refine ⟨t, flush0_7 t, ?_⟩
  rw [mem_blkV]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

/-- The value array after the region. -/
theorem finalV (c : Dev nD) : (dats m 0 c).arrAt 7 cfg0.N = flatKV (xArr m c) (gArr m c) (wvArr m c) :=
  (dats m 0 c).arrAt_eq_of_cover 7 _ (fun t _ => flushedV_eq m c t) coverV

end Cert.KernelIdeal.Blocks

end
-- ==== Proof.Relayout.lean ====
/-
  The two layouts of one computation.

  The kernel flattens the input `[4, 8192, 1024]` to `[32768, 1024]` before the
  region and splits each flattened result `[32768, heads * 64]` into
  `[4, 8192, heads, 64]` after it. Both reshapes keep the row-major position, so token
  `(b, s)` is row `b * 8192 + s` and head `n`, lane `e` is column `n * 64 + e`: the
  flattened projection of the flattened input, split, is the projection of the
  rank-3 input.
-/
import proofs.«181988_j8203387535387_1_alg».proof.Proof.RowSpec
import Idealize.ShloMosaic.Lib.Pipeline.Value

noncomputable section

namespace Cert.RmsProj

open Idealize.ShloMosaic Idealize.ShloMosaic.ValueIdx

/-- Row `b * 8192 + s` of the flattened input is row `(b, s)` of the input. -/
theorem row2_flatten (x : (⟨3, ![4, 8192, 1024]⟩ : Shape).Idx → EReal)
    (h : (⟨3, ![4, 8192, 1024]⟩ : Shape).ShapeCasts ⟨2, ![32768, 1024]⟩) (b : Fin 4) (s : Fin 8192) :
    row2 (shapeCast ⟨2, ![32768, 1024]⟩ x h) (tokenRow b s) = row3 x b s := by
  funext k
  refine shapeCast_apply x h (ix2 (tokenRow b s) k) (ix3 b s k) ?_
  rw [Shape.rowMajor_val_three, Shape.rowMajor_val_two]
  show (b.val * 8192 + s.val) * 1024 + k.val = (b.val * 8192 + s.val) * 1024 + k.val
  rfl

/-- The flattened query projection of the flattened input, split into sixteen heads, is the query result. -/
theorem flatQ_split (x : (⟨3, ![4, 8192, 1024]⟩ : Shape).Idx → EReal) (g : (⟨1, ![1024]⟩ : Shape).Idx → EReal)
    (w : (⟨2, ![1024, 1024]⟩ : Shape).Idx → EReal)
    (h : (⟨3, ![4, 8192, 1024]⟩ : Shape).ShapeCasts ⟨2, ![32768, 1024]⟩)
    (h' : (⟨2, ![32768, 1024]⟩ : Shape).ShapeCasts ⟨4, ![4, 8192, 16, 64]⟩) :
    shapeCast ⟨4, ![4, 8192, 16, 64]⟩ (flatQ (shapeCast ⟨2, ![32768, 1024]⟩ x h) g w) h' = outQ x g w := by
  funext i
  have h0 : (i 0).val < 4 := (i 0).isLt
  have h1 : (i 1).val < 8192 := (i 1).isLt
  have h2 : (i 2).val < 16 := (i 2).isLt
  have h3 : (i 3).val < 64 := (i 3).isLt
  refine (shapeCast_apply _ h' i (ix2 (tokenRow ⟨(i 0).val, h0⟩ ⟨(i 1).val, h1⟩) (headCol16 ⟨(i 2).val, h2⟩ ⟨(i 3).val, h3⟩)) ?_).trans ?_
  · rw [Shape.rowMajor_val_two, Shape.rowMajor_val_four]
    show ((i 0).val * 8192 + (i 1).val) * 1024 + ((i 2).val * 64 + (i 3).val)
      = (((i 0).val * 8192 + (i 1).val) * 16 + (i 2).val) * 64 + (i 3).val
    omega
  · rw [flatQ_apply _ _ _ (tokenRow ⟨(i 0).val, h0⟩ ⟨(i 1).val, h1⟩) (headCol16 ⟨(i 2).val, h2⟩ ⟨(i 3).val, h3⟩) _ rfl rfl,
      row2_flatten]
    rfl

/-- The flattened key or value projection of the flattened input, split into two heads, is the key or value result. -/
theorem flatKV_split (x : (⟨3, ![4, 8192, 1024]⟩ : Shape).Idx → EReal) (g : (⟨1, ![1024]⟩ : Shape).Idx → EReal)
    (w : (⟨2, ![1024, 128]⟩ : Shape).Idx → EReal)
    (h : (⟨3, ![4, 8192, 1024]⟩ : Shape).ShapeCasts ⟨2, ![32768, 1024]⟩)
    (h' : (⟨2, ![32768, 128]⟩ : Shape).ShapeCasts ⟨4, ![4, 8192, 2, 64]⟩) :
    shapeCast ⟨4, ![4, 8192, 2, 64]⟩ (flatKV (shapeCast ⟨2, ![32768, 1024]⟩ x h) g w) h' = outKV x g w := by
  funext i
  have h0 : (i 0).val < 4 := (i 0).isLt
  have h1 : (i 1).val < 8192 := (i 1).isLt
  have h2 : (i 2).val < 2 := (i 2).isLt
  have h3 : (i 3).val < 64 := (i 3).isLt
  refine (shapeCast_apply _ h' i (ix2 (tokenRow ⟨(i 0).val, h0⟩ ⟨(i 1).val, h1⟩) (headCol2 ⟨(i 2).val, h2⟩ ⟨(i 3).val, h3⟩)) ?_).trans ?_
  · rw [Shape.rowMajor_val_two, Shape.rowMajor_val_four]
    show ((i 0).val * 8192 + (i 1).val) * 128 + ((i 2).val * 64 + (i 3).val)
      = (((i 0).val * 8192 + (i 1).val) * 2 + (i 2).val) * 64 + (i 3).val
    omega
  · rw [flatKV_apply _ _ _ (tokenRow ⟨(i 0).val, h0⟩ ⟨(i 1).val, h1⟩) (headCol2 ⟨(i 2).val, h2⟩ ⟨(i 3).val, h3⟩) _ rfl rfl,
      row2_flatten]
    rfl

end Cert.RmsProj

end
-- ==== Proof.KernelRun.lean ====
/-
  The idealized kernel's run, read as values.

  Before the region the host flattens the input and converts the three weight
  matrices to bf16, which at the ideal values changes nothing; after it the host
  splits each flattened result into heads. With the arrays after the region known,
  each result of the program is the row-wise specification of the arguments.
-/
import proofs.«181988_j8203387535387_1_alg».proof.Proof.KernelBlocks
import proofs.«181988_j8203387535387_1_alg».proof.Proof.Relayout
import Idealize.ShloMosaic.Lib.StableHlo.Run

set_option maxRecDepth 16384

noncomputable section

namespace Cert.KernelIdeal.Whole

open Cert.KernelIdeal Cert.KernelIdeal.Gen Cert.KernelIdeal.Blocks
open Idealize.ShloMosaic Idealize.ShloMosaic.TcCoe Idealize.ShloMosaic.ValueIdx Idealize.SL.Sem Cert.RmsProj
open Idealize.ShloMosaic.StableHlo

variable (m : (ℓ : Loc nD τ sig) → Buf (Elt Ideal) ℓ) (ρ : Dev nD → PrngReg)

/-- The region finds the input flattened. -/
theorem xArr_eq (c : Dev nD) :
    xArr m c = shapeCast S32768x1024 (m ((c : Thread nD τ).loc main_arg0)) shapeCasts_S4x8192x1024_S32768x1024 := by
  show StableHlo.after hostOps0 (fun b => m (c, b)) (Proc.devRef .tc main_v0) = _
  after_results
  rfl

/-- The gain vector is the argument itself. -/
theorem gArr_eq (c : Dev nD) : gArr m c = m ((c : Thread nD τ).loc main_arg1) := V_main_arg1 m c

/-- The query weights are the argument: the conversion to bf16 is the identity at the ideal values. -/
theorem wqArr_eq (c : Dev nD) : wqArr m c = m ((c : Thread nD τ).loc main_arg2) := by
  show StableHlo.after hostOps0 (fun b => m (c, b)) (Proc.devRef .tc main_v1) = _
  after_results
  rfl

/-- The key weights likewise. -/
theorem wkArr_eq (c : Dev nD) : wkArr m c = m ((c : Thread nD τ).loc main_arg3) := by
  show StableHlo.after hostOps0 (fun b => m (c, b)) (Proc.devRef .tc main_v2) = _
  after_results
  rfl

/-- The value weights likewise. -/
theorem wvArr_eq (c : Dev nD) : wvArr m c = m ((c : Thread nD τ).loc main_arg4) := by
  show StableHlo.after hostOps0 (fun b => m (c, b)) (Proc.devRef .tc main_v3) = _
  after_results
  rfl

/-- The first result: the query array split into sixteen heads. -/
theorem tailQ (c : Dev nD) :
    Pipeline.afterTail₀ cfgs (dats m) 0 (V0 m) [hostOps1] c main_v5
      = outQ (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  show shapeCast S4x8192x16x64 (Pipeline.withArrays spec0 c (V0 m c) (fun w => (dats m 0 c).arrAt w cfg0.N)
      (Proc.devRef .tc (Pipeline.arrRef spec0 5))) shapeCasts_S32768x1024_S4x8192x16x64 = _
  rw [Pipeline.withArrays_arr spec0 launch0.win.arr_inj c _ _ 5, finalQ, xArr_eq, gArr_eq, wqArr_eq]
  exact flatQ_split _ _ _ _ _

/-- The second result: the key array split into two heads. -/
theorem tailK (c : Dev nD) :
    Pipeline.afterTail₀ cfgs (dats m) 0 (V0 m) [hostOps1] c main_v6
      = outKV (m ((c : Thread nD τ).loc main_arg0)) (m ((c : Thread nD τ).loc main_arg1)) (m ((c : Thread nD τ).loc main_arg3)) := by
  unfold Pipeline.afterTail₀
  show StableHlo.after hostOps1 _ (Proc.devRef .tc main_v6) = _
  after_results
  show shapeCast S4x8192x2x64 (Pipeline.withArrays spec0 c (V0 m c) (fun w => (dats m 0 c).arrAt w cfg0.N)
      (Proc.devRef .tc (Pipeline.arrRef spec0 6))) shapeCasts_S32768x128_S4x8192x2x64 = _
  rw [Pipeline.withArrays_arr spec0 launch0.win.arr_inj c _ _ 6, finalK, xArr_eq, gArr_eq, wkArr_eq]
  exact flatKV_split _ _ _ _ _

/-- The third result: the value array split into two heads. -/
theorem tailV (c : Dev nD) :
    Pipeline.afterTail₀ cfgs (dats m) 0 (V0 m) [hostOps1] c main_v7
      = outKV (m ((c : Thread nD τ).loc main_arg0)) (m ((c : Thread nD τ).loc main_arg1)) (m ((c : Thread nD τ).loc main_arg4)) := by
  unfold Pipeline.afterTail₀
  show StableHlo.after hostOps1 _ (Proc.devRef .tc main_v7) = _
  after_results
  show shapeCast S4x8192x2x64 (Pipeline.withArrays spec0 c (V0 m c) (fun w => (dats m 0 c).arrAt w cfg0.N)
      (Proc.devRef .tc (Pipeline.arrRef spec0 7))) shapeCasts_S32768x128_S4x8192x2x64 = _
  rw [Pipeline.withArrays_arr spec0 launch0.win.arr_inj c _ _ 7, finalV, xArr_eq, gArr_eq, wvArr_eq]
  exact flatKV_split _ _ _ _ _

/-- Every weakly fair execution of the idealized kernel terminates with its three results at the row-wise
    specification of the arguments, and the arguments as launched. -/
theorem run : θ_run defs (onTc (τ := τ) (main (F := Ideal))) ⟨m, fun _ => 0, ρ⟩ fun r => ∀ c : Dev nD,
      r.2.mem ((c.tc : Thread nD τ).loc main_v5)
        = outQ (m ((c.tc : Thread nD τ).loc main_arg0)) (m ((c.tc : Thread nD τ).loc main_arg1)) (m ((c.tc : Thread nD τ).loc main_arg2))
      ∧ r.2.mem ((c.tc : Thread nD τ).loc main_v6)
        = outKV (m ((c.tc : Thread nD τ).loc main_arg0)) (m ((c.tc : Thread nD τ).loc main_arg1)) (m ((c.tc : Thread nD τ).loc main_arg3))
      ∧ r.2.mem ((c.tc : Thread nD τ).loc main_v7)
        = outKV (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tailQ m c),
      ((h c).2 main_v6 (Pipeline.mem_restRefs_of main_v6 (by decide) (by decide))).trans (tailK m c),
      ((h c).2 main_v7 (Pipeline.mem_restRefs_of main_v7 (by decide) (by decide))).trans (tailV m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefRead.lean ====
/-
  The reference program computes the row-wise specification.

  Its stages are read one operation at a time: the activations after the two
  multiplications are, at `(b, s, k)`, the normalised row `(b, s)` at `k`; each
  `dot_general` contracts that row with a weight column; and each final reshape from
  `[4, 8192, heads * 64]` to `[4, 8192, heads, 64]` reads column `n * 64 + e`.
-/
import proofs.«181988_j8203387535387_1_alg».proof.Proof.Gen.ReferenceIdeal.Run
import proofs.«181988_j8203387535387_1_alg».proof.Proof.Gen.ReferenceIdeal.Read
import proofs.«181988_j8203387535387_1_alg».proof.Proof.RowSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.RmsProj

/-- The reduced axis of the sum of squares, re-inserted under the two broadcasts, is the row's own column. -/
theorem sq_idx (b : Fin 4) (s : Fin 8192) (k j : Fin 1024) :
    idx_main_v1 (idx_main_v2 (idx_main_v8 (ix3 b s k))) j = ix3 b s j :=
  funext fun a => match a with | ⟨0, _⟩ => rfl | ⟨1, _⟩ => rfl | ⟨2, _⟩ => rfl

/-- The gain is broadcast along the last axis. -/
theorem gain_idx (b : Fin 4) (s : Fin 8192) (k : Fin 1024) :
    idx_main_v12 (idx_main_v13 (ix3 b s k)) = ix1 k :=
  funext fun a => match a with | ⟨0, _⟩ => rfl

/-- The activations fed to the three products: the normalised row `(b, s)` at column `k`. -/
theorem act_apply (x0 : (⟨S4x8192x1024, .f32⟩ : BufTy).Contents (Elt Ideal)) (x1 : (⟨S1024, .f32⟩ : BufTy).Contents (Elt Ideal))
    (b : Fin 4) (s : Fin 8192) (k : Fin 1024) :
    val_main_v14 (F := Ideal) x0 x1 (ix3 b s k) = normed (row3 x0 b s) (gain x1) k := by
  rw [val_main_v14_apply, val_main_v9_apply, val_main_v8_apply, val_main_v7_apply, val_main_v6_apply, val_main_v4_apply,
    val_main_v2_apply, val_main_v1_apply, val_main_v3_apply, val_main_v5_apply, val_main_v13_apply, val_main_v12_apply,
    val_main_v11_apply, val_main_v10_apply]
  simp only [val_main_v0_apply, val_main_cst_apply, val_main_cst_0_apply, val_main_cst_1_apply, val_main_cst_2_apply,
    sq_idx, gain_idx, Ideal.mulf_def, Ideal.addf_def, Ideal.hostDivf_def, Ideal.hostUnary_rsqrt_def, Ideal.ofBits_def,
    Ideal.ofBits_zero_f32, zero_add]
  rfl

/-- The query product before its reshape, at `(b, s, d)`: row `(b, s)` against column `d`. -/
theorem q3_apply (x0 : (⟨S4x8192x1024, .f32⟩ : BufTy).Contents (Elt Ideal)) (x1 : (⟨S1024, .f32⟩ : BufTy).Contents (Elt Ideal))
    (x2 : (⟨S1024x1024, .f32⟩ : BufTy).Contents (Elt Ideal)) (b : Fin 4) (s : Fin 8192) (d : Fin 1024) :
    val_main_v15 (F := Ideal) x0 x1 x2 (ix3 b s d) = proj (row3 x0 b s) (gain x1) (colQ x2 d) := by
  rw [val_main_v15_apply]
  unfold proj
  refine Finset.sum_congr rfl fun k _ => ?_
  rw [show lidx_main_v15 (ix3 b s d) k = ix3 b s k from
    funext fun a => match a with | ⟨0, _⟩ => rfl | ⟨1, _⟩ => rfl | ⟨2, _⟩ => rfl, act_apply]
  exact congrArg _ (congrArg x2 (funext fun a => match a with | ⟨0, _⟩ => rfl | ⟨1, _⟩ => rfl))

/-- The key product before its reshape. -/
theorem k3_apply (x0 : (⟨S4x8192x1024, .f32⟩ : BufTy).Contents (Elt Ideal)) (x1 : (⟨S1024, .f32⟩ : BufTy).Contents (Elt Ideal))
    (x3 : (⟨S1024x128, .f32⟩ : BufTy).Contents (Elt Ideal)) (b : Fin 4) (s : Fin 8192) (d : Fin 128) :
    val_main_v16 (F := Ideal) x0 x1 x3 (ix3 b s d) = proj (row3 x0 b s) (gain x1) (colKV x3 d) := by
  rw [val_main_v16_apply]
  unfold proj
  refine Finset.sum_congr rfl fun k _ => ?_
  rw [show lidx_main_v16 (ix3 b s d) k = ix3 b s k from
    funext fun a => match a with | ⟨0, _⟩ => rfl | ⟨1, _⟩ => rfl | ⟨2, _⟩ => rfl, act_apply]
  exact congrArg _ (congrArg x3 (funext fun a => match a with | ⟨0, _⟩ => rfl | ⟨1, _⟩ => rfl))

/-- The value product before its reshape. -/
theorem v3_apply (x0 : (⟨S4x8192x1024, .f32⟩ : BufTy).Contents (Elt Ideal)) (x1 : (⟨S1024, .f32⟩ : BufTy).Contents (Elt Ideal))
    (x4 : (⟨S1024x128, .f32⟩ : BufTy).Contents (Elt Ideal)) (b : Fin 4) (s : Fin 8192) (d : Fin 128) :
    val_main_v17 (F := Ideal) x0 x1 x4 (ix3 b s d) = proj (row3 x0 b s) (gain x1) (colKV x4 d) := by
  rw [val_main_v17_apply]
  unfold proj
  refine Finset.sum_congr rfl fun k _ => ?_
  rw [show lidx_main_v17 (ix3 b s d) k = ix3 b s k from
    funext fun a => match a with | ⟨0, _⟩ => rfl | ⟨1, _⟩ => rfl | ⟨2, _⟩ => rfl, act_apply]
  exact congrArg _ (congrArg x4 (funext fun a => match a with | ⟨0, _⟩ => rfl | ⟨1, _⟩ => rfl))

/-- Splitting the last axis of `[4, 8192, 1024]` into sixteen heads of 64 keeps `(b, s)` and reads column `n * 64 + e`. -/
theorem q_split_idx (i : S4x8192x16x64.Idx) :
    idx_main_v18 i = ix3 (⟨(i 0).val, (i 0).isLt⟩ : Fin 4) (⟨(i 1).val, (i 1).isLt⟩ : Fin 8192)
      (headCol16 ⟨(i 2).val, (i 2).isLt⟩ ⟨(i 3).val, (i 3).isLt⟩) := by
  have h0 : (i 0).val < 4 := (i 0).isLt
  have h1 : (i 1).val < 8192 := (i 1).isLt
  have h2 : (i 2).val < 16 := (i 2).isLt
  have h3 : (i 3).val < 64 := (i 3).isLt
  funext a
  apply Fin.ext
  match a with
  | ⟨0, _⟩ => show ((((i 0).val * 8192 + (i 1).val) * 16 + (i 2).val) * 64 + (i 3).val) / 8388608 = (i 0).val; omega
  | ⟨1, _⟩ => show ((((i 0).val * 8192 + (i 1).val) * 16 + (i 2).val) * 64 + (i 3).val) / 1024 % 8192 = (i 1).val; omega
  | ⟨2, _⟩ => show ((((i 0).val * 8192 + (i 1).val) * 16 + (i 2).val) * 64 + (i 3).val) % 1024 = (i 2).val * 64 + (i 3).val; omega

/-- Splitting the last axis of `[4, 8192, 128]` into two heads of 64 likewise. -/
theorem kv_split_idx (i : S4x8192x2x64.Idx) :
    idx_main_v19 i = ix3 (⟨(i 0).val, (i 0).isLt⟩ : Fin 4) (⟨(i 1).val, (i 1).isLt⟩ : Fin 8192)
      (headCol2 ⟨(i 2).val, (i 2).isLt⟩ ⟨(i 3).val, (i 3).isLt⟩) := by
  have h0 : (i 0).val < 4 := (i 0).isLt
  have h1 : (i 1).val < 8192 := (i 1).isLt
  have h2 : (i 2).val < 2 := (i 2).isLt
  have h3 : (i 3).val < 64 := (i 3).isLt
  funext a
  apply Fin.ext
  match a with
  | ⟨0, _⟩ => show ((((i 0).val * 8192 + (i 1).val) * 2 + (i 2).val) * 64 + (i 3).val) / 1048576 = (i 0).val; omega
  | ⟨1, _⟩ => show ((((i 0).val * 8192 + (i 1).val) * 2 + (i 2).val) * 64 + (i 3).val) / 128 % 8192 = (i 1).val; omega
  | ⟨2, _⟩ => show ((((i 0).val * 8192 + (i 1).val) * 2 + (i 2).val) * 64 + (i 3).val) % 128 = (i 2).val * 64 + (i 3).val; omega

/-- The reference's first result is the query specification. -/
theorem q_eq (x0 : (⟨S4x8192x1024, .f32⟩ : BufTy).Contents (Elt Ideal)) (x1 : (⟨S1024, .f32⟩ : BufTy).Contents (Elt Ideal))
    (x2 : (⟨S1024x1024, .f32⟩ : BufTy).Contents (Elt Ideal)) :
    val_main_v18 (F := Ideal) x0 x1 x2 = outQ x0 x1 x2 := by
  funext i
  rw [val_main_v18_apply, q_split_idx, q3_apply]
  rfl

/-- Its second result is the key specification. -/
theorem k_eq (x0 : (⟨S4x8192x1024, .f32⟩ : BufTy).Contents (Elt Ideal)) (x1 : (⟨S1024, .f32⟩ : BufTy).Contents (Elt Ideal))
    (x3 : (⟨S1024x128, .f32⟩ : BufTy).Contents (Elt Ideal)) :
    val_main_v19 (F := Ideal) x0 x1 x3 = outKV x0 x1 x3 := by
  funext i
  rw [val_main_v19_apply, kv_split_idx, k3_apply]
  rfl

/-- Its third result is the value specification. -/
theorem v_eq (x0 : (⟨S4x8192x1024, .f32⟩ : BufTy).Contents (Elt Ideal)) (x1 : (⟨S1024, .f32⟩ : BufTy).Contents (Elt Ideal))
    (x4 : (⟨S1024x128, .f32⟩ : BufTy).Contents (Elt Ideal)) :
    val_main_v20 (F := Ideal) x0 x1 x4 = outKV x0 x1 x4 := by
  funext i
  rw [val_main_v20_apply, show idx_main_v20 i = idx_main_v19 i from rfl, kv_split_idx, v3_apply]
  rfl

end Cert.ReferenceIdeal.RefValue

end
-- ==== Proof.lean ====
/-
  The certificate's claim.

  Both programs compute, for each token `(b, s)`, the row `x[b, s, :]` scaled by
  `rsqrt (Σ_j x_j² / 1024 + ε)` and by `1 + g`, and then its dot products with the columns
  of the query, key and value weight matrices, laid out as `[4, 8192, heads, 64]`. The
  kernel works on the input flattened to 32768 rows, 1024 rows per grid point, and
  feeds the matrix unit bf16 operands; at the ideal values a change of float format is
  the identity, a matrix product into a zero accumulator is the plain sum of products,
  and the lane sum is the plain sum, so both sides are the same function of the
  arguments with the operations in the same order. No step uses that the inputs are
  finite.

  The word-level and the idealized kernel run, and leave their arguments unchanged, by
  their frames; the reference by its run. The ideal pass rewrote nothing, so the
  idealization claim is trivially true. For the value claim the idealized kernel's run
  is read as the row-wise specification (the body's arithmetic at an index, the blocks
  covering each result array, the reshapes before and after the region), and the
  reference's run is read as the same specification one host operation at a time.
-/
import proofs.«181988_j8203387535387_1_alg».proof.Defs
import proofs.«181988_j8203387535387_1_alg».proof.Proof.Gen.Kernel
import proofs.«181988_j8203387535387_1_alg».proof.Proof.Gen.Kernel.Frame
import proofs.«181988_j8203387535387_1_alg».proof.Proof.Gen.KernelIdeal
import proofs.«181988_j8203387535387_1_alg».proof.Proof.Gen.KernelIdeal.Frame
import proofs.«181988_j8203387535387_1_alg».proof.Proof.Gen.ReferenceIdeal
import proofs.«181988_j8203387535387_1_alg».proof.Proof.Gen.ReferenceIdeal.Run
import proofs.«181988_j8203387535387_1_alg».proof.Proof.Gen.ReferenceIdeal.Read
import proofs.«181988_j8203387535387_1_alg».proof.Proof.Gen.Pre_finite_inputs
import proofs.«181988_j8203387535387_1_alg».proof.Proof.KernelRun
import proofs.«181988_j8203387535387_1_alg».proof.Proof.RefRead
import Idealize.ShloMosaic.Adequacy
import Idealize.ShloMosaic.Init

noncomputable section

namespace Cert.Proof

open Idealize.ShloMosaic Idealize.ShloMosaic.TcCoe Idealize.SL.Sem Cert.RmsProj

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the five arguments both idealized programs end with the query, key and value
    results at the row-wise specification of those arguments. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨h18, h19, h20, hargs⟩ := h c
  refine ⟨?_, ?_, ?_, hargs⟩
  · rw [h18, Cert.ReferenceIdeal.Read.val_main_v18_eq, Cert.ReferenceIdeal.RefValue.q_eq, a0, a1, a2]
  · rw [h19, Cert.ReferenceIdeal.Read.val_main_v19_eq, Cert.ReferenceIdeal.RefValue.k_eq, a0, a1, a3]
  · rw [h20, Cert.ReferenceIdeal.Read.val_main_v20_eq, Cert.ReferenceIdeal.RefValue.v_eq, a0, a1, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
